-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x1 .f32) (main_arg5 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x64 : Shape := ⟨2, ![2000, 64]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S128x128 : Shape := ⟨2, ![128, 128]⟩

abbrev nBuf : Space → Nat
  | .hbm => 87
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S_, .f32⟩
  | .hbm, ⟨62, _⟩ => ⟨S128x128, .f32⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x1, .f32⟩
  | .hbm, ⟨86, _⟩ => ⟨S100000, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_call0_v0 : Ref sig .tc := ⟨.hbm, 61, rfl⟩
abbrev main_v44 : Ref sig .tc := ⟨.hbm, 62, rfl⟩
abbrev main_c_9 : Ref sig .tc := ⟨.hbm, 63, rfl⟩
abbrev main_call1_v0 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  pads_S128x1_S128x128_000_01270 : S128x1.Pads (![0, 0] : Fin 2 → Nat) ![0, 127] ![0, 0] S128x128
  h_S_ : 0 < S_.numel
  pads_S1_S128_01270 : S1.Pads (![0] : Fin 1 → Nat) ![127] ![0] S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x1_0_0 : S100000x128.Slices ![0, 0] S100000x1
  shapeCasts_S100000x1_S100000 : S100000x1.ShapeCasts S100000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x1, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x1, .f32⟩
  | .hbm, ⟨106, _⟩ => ⟨S1600000x1, .f32⟩
  | .hbm, ⟨107, _⟩ => ⟨S1600000x1, .f32⟩
  | .hbm, ⟨108, _⟩ => ⟨S_, .f32⟩
  | .hbm, ⟨109, _⟩ => ⟨S100000x1, .f32⟩
  | .hbm, ⟨110, _⟩ => ⟨S1600000x1, .i32⟩
  | .hbm, ⟨111, _⟩ => ⟨S100000x1, .f32⟩
  | .hbm, ⟨112, _⟩ => ⟨S100000, .f32⟩
  | .hbm, ⟨113, _⟩ => ⟨S100000x1, .f32⟩
  | .hbm, ⟨114, _⟩ => ⟨S100000x1, .f32⟩
  | .hbm, ⟨115, _⟩ => ⟨S100000x1, .f32⟩
  | .hbm, ⟨116, _⟩ => ⟨S1x1, .f32⟩
  | .hbm, ⟨117, _⟩ => ⟨S100000x1, .f32⟩
  | .hbm, ⟨118, _⟩ => ⟨S100000x1, .f32⟩
  | .hbm, ⟨119, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x64_S64x128_S100000x128_1_0_0_1_n_n_wf : DotDims.WF S100000x64 S64x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.KStage.lean ====
/-
  The host side of the kernel program, named once. Between its four matrix kernels the program computes, from the edge
  list alone, the inverse square roots of the degrees, their products along each edge, and, per layer, the messages
  gathered along the edges, scaled, and summed into their destination rows. Each of these is one function here, spelt
  with the operations the program prints, so that reading the program's buffers back is a matter of folding names.
-/
import proofs.«120777_j44702019616965_1_alg».proof.Proof.Gen.KernelIdeal
import Idealize.ShloMosaic.PureOps.Ideal
import Idealize.ShloMosaic.Lib.ValueIdx

noncomputable section

namespace Cert.KernelIdeal.Stage

open Idealize.ShloMosaic Idealize.ShloMosaic.ValueIdx Cert.KernelIdeal Cert.KernelIdeal.Facts₀ Cert.KernelIdeal.Facts
open scoped BigOperators

variable {F : FTy → Type} [FloatOps F]

/-- The edges' source nodes: row 0 of the edge list. -/
def srcRow (ei : IVec S2x1600000 32) : IVec S1600000 32 :=
  shapeCast _ (extractStridedSlice S1x1600000 ![0, 0] ei slices_S2x1600000_S1x1600000_0_0) shapeCasts_S1x1600000_S1600000

/-- The edges' destination nodes: row 1 of the edge list. -/
def dstRow (ei : IVec S2x1600000 32) : IVec S1600000 32 :=
  shapeCast _ (extractStridedSlice S1x1600000 ![1, 0] ei slices_S2x1600000_S1x1600000_1_0) shapeCasts_S1x1600000_S1600000

/-- A negative node number counts from the end: n < 0 becomes n + 100000. -/
def wrap (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- A vector of node numbers as a one-column matrix of start positions. -/
def col (v : IVec S1600000 32) : IVec S1600000x1 32 :=
  broadcastInDim S1600000x1 ![0] bcast_S1600000_S1600000x1_0 v

/-- d(n)^(-1/2), where d(n) is one plus the number of edges that end in n. -/
def dinv (ei : IVec S2x1600000 32) : FVec F S100000 .f32 :=
  Host.rsqrt (addf
    (Host.scatterAdd scatter_S100000_S1600000x1_S1600000_n_0_0_1
      (broadcastInDim S100000 ![] bcast_S_S100000 (constant S_ .f32 0x00000000#32))
      (col (dstRow ei))
      (broadcastInDim S1600000 ![] bcast_S_S1600000 (constant S_ .f32 0x3F800000#32)))
    (broadcastInDim S100000 ![] bcast_S_S100000 (constant S_ .f32 0x3F800000#32)))

/-- The weight of edge e: d(src e)^(-1/2) · d(dst e)^(-1/2). -/
def norm (ei : IVec S2x1600000 32) : FVec F S1600000 .f32 :=
  mulf (Host.gather gather_S100000_S1600000x1_S1600000_n_0_n_n_0_1_1 (dinv (F := F) ei) (col (wrap (srcRow ei))))
    (Host.gather gather_S100000_S1600000x1_S1600000_n_0_n_n_0_1_1 (dinv (F := F) ei) (col (wrap (dstRow ei))))

/-- The self-loop weight d(n)^(-1), as a column. -/
def dinv2 (ei : IVec S2x1600000 32) : FVec F S100000x1 .f32 :=
  shapeCast _ (mulf (dinv (F := F) ei) (dinv (F := F) ei)) shapeCasts_S100000_S100000x1

/-- One layer's aggregation of a node-feature matrix h: row n is the sum, over the edges e that end in n, of the
    weight of e times row (src e) of h. -/
def agg (h : FVec F S100000x128 .f32) (ei : IVec S2x1600000 32) : FVec F S100000x128 .f32 :=
  Host.scatterAdd scatter_S100000x128_S1600000x1_S1600000x128_1_0_0_1
    (broadcastInDim S100000x128 ![] bcast_S_S100000x128 (constant S_ .f32 0x00000000#32))
    (col (dstRow ei))
    (mulf (Host.gather gather_S100000x128_S1600000x1_S1600000x128_1_0_n_n_0_1_1128 h (col (wrap (srcRow ei))))
      (broadcastInDim S1600000x128 ![0, 1] bcast_S1600000x1_S1600000x128_0_1
        (broadcastInDim S1600000x1 ![0] bcast_S1600000_S1600000x1_0 (norm (F := F) ei))))

/-- A bias vector as a one-row matrix. -/
def brow (b : FVec F S128 .f32) : FVec F S1x128 .f32 := shapeCast _ b shapeCasts_S128_S1x128

/-- The second layer's one weight column widened to 128 columns, the new ones zero. -/
def w2pad (w2 : FVec F S128x1 .f32) : FVec F S128x128 .f32 :=
  pad S128x128 ![0, 0] ![0, 127] ![0, 0] w2 (sitofp .f32 (constantI S_ 32 0#32)) pads_S128x1_S128x128_000_01270 h_S_

/-- The second layer's one bias widened to 128 entries, the new ones zero. -/
def b2pad (b2 : FVec F S1 .f32) : FVec F S128 .f32 :=
  pad S128 ![0] ![127] ![0] b2 (sitofp .f32 (constantI S_ 32 0#32)) pads_S1_S128_01270 h_S_

/-- Column 0 of a 128-column matrix, as a vector. -/
def outCol (f : FVec F S100000x128 .f32) : FVec F S100000 .f32 :=
  shapeCast _ (extractStridedSlice S100000x1 ![0, 0] f slices_S100000x128_S100000x1_0_0) shapeCasts_S100000x1_S100000

/-! ## What the four matrix kernels compute, as whole arrays over the extended reals -/

/-- The first layer's product x·w: entry (i, j) is the sum over k of x(i, k)·w(k, j). -/
def lin64 (x : FVec Ideal S100000x64 .f32) (w : FVec Ideal S64x128 .f32) : FVec Ideal S100000x128 .f32 :=
  fun i => ∑ k : Fin 64, x (ix2 (i 0) k) * w (ix2 k (i 1))

/-- The second layer's product h·w over 128 columns. -/
def lin128 (h : FVec Ideal S100000x128 .f32) (w : FVec Ideal S128x128 .f32) : FVec Ideal S100000x128 .f32 :=
  fun i => ∑ k : Fin 128, h (ix2 (i 0) k) * w (ix2 k (i 1))

/-- A layer's combination: aggregate plus the self-loop term h(i, j)·d(i)^(-1), plus the bias of column j. -/
def comb (a h : FVec Ideal S100000x128 .f32) (d : FVec Ideal S100000x1 .f32) (b : FVec Ideal S1x128 .f32) :
    FVec Ideal S100000x128 .f32 :=
  fun i => (a i + h i * d (ix2 (i 0) (0 : Fin 1))) + b (ix2 (0 : Fin 1) (i 1))

/-- The same followed by the rectifier max(·, 0). -/
def reluComb (a h : FVec Ideal S100000x128 .f32) (d : FVec Ideal S100000x1 .f32) (b : FVec Ideal S1x128 .f32) :
    FVec Ideal S100000x128 .f32 :=
  fun i => max (comb a h d b i) 0

/-! ## The edges that end in a node, and where an edge's message is read -/

/-- The edges whose destination, read signed, is node n. -/
def inEdges (ei : IVec S2x1600000 32) (n : Fin 100000) : Finset (Fin 1600000) :=
  Finset.univ.filter fun e : Fin 1600000 => (col (dstRow ei) (ix2 e (0 : Fin 1))).toInt = (n.val : ℤ)

/-- The row an edge's message is gathered from: its source, counted from the end when negative, clamped into range. -/
def srcPos (ei : IVec S2x1600000 32) (e : Fin 1600000) : Fin 100000 :=
  ⟨min (col (wrap (srcRow ei)) (ix2 e (0 : Fin 1))).toInt.toNat (100000 - 1), by omega⟩

end Cert.KernelIdeal.Stage

end
-- ==== Proof.KFoldKept.lean ====
/-
  Reading the kernel program's buffers back through its run. The run is a chain of host stretches and four matrix
  kernels; each boundary's contents are a fold of the launch memory. Six buffers are fixed before the first kernel
  and never written or windowed again (three arguments, the two rows of the edge list, the edge weights), so at every later
  boundary they hold what the first stretch left; the self-loop column is the same except that two kernels read it
  through a window, which leaves it as it was; every other buffer a kernel reads is what one host
  stretch or one earlier kernel wrote. Composed, the result buffer is column 0 of the second layer's combination.
-/
import proofs.«120777_j44702019616965_1_alg».proof.Proof.Gen.KernelIdeal.Frame
import proofs.«120777_j44702019616965_1_alg».proof.Proof.KStage
import Idealize.ShloMosaic.Lib.StableHlo.Run

set_option maxRecDepth 16384

noncomputable section

namespace Cert.KernelIdeal.Fold

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations none of which writes a buffer leaves that buffer as it found it. -/
scoped macro "skip_host " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The buffers fixed before the first kernel -/

/-- The buffers that the first host stretch (or the launch) fixes and that nothing later writes. -/
abbrev Kept (b : Ref sig .tc) : Prop :=
  b = main_arg3 ∨ b = main_arg4 ∨ b = main_arg5 ∨ b = main_v1 ∨ b = main_v3 ∨ b = main_v25

theorem W2_kept (c : Dev nD) {b : Ref sig .tc} (hb : Kept b) :
    W2 m ρ c (Proc.devRef .tc b) = W1 m ρ c (Proc.devRef .tc b) := by
  rcases hb with rfl | rfl | rfl | rfl | rfl | rfl <;> exact W2_of_ne m ρ c _ (by decide)
theorem W3_kept (c : Dev nD) {b : Ref sig .tc} (hb : Kept b) :
    W3 m ρ c (Proc.devRef .tc b) = W1 m ρ c (Proc.devRef .tc b) := by
  refine Eq.trans ?_ (W2_kept m ρ c hb)
  rcases hb with rfl | rfl | rfl | rfl | rfl | rfl <;> exact skip_host hostOps1
theorem W4_kept (c : Dev nD) {b : Ref sig .tc} (hb : Kept b) :
    W4 m ρ c (Proc.devRef .tc b) = W1 m ρ c (Proc.devRef .tc b) := by
  refine Eq.trans ?_ (W3_kept m ρ c hb)
  rcases hb with rfl | rfl | rfl | rfl | rfl | rfl <;> exact W4_of_ne m ρ c _ (by decide)
theorem W5_kept (c : Dev nD) {b : Ref sig .tc} (hb : Kept b) :
    W5 m ρ c (Proc.devRef .tc b) = W1 m ρ c (Proc.devRef .tc b) := by
  refine Eq.trans ?_ (W4_kept m ρ c hb)
  rcases hb with rfl | rfl | rfl | rfl | rfl | rfl <;> exact skip_host hostOps2
theorem W6_kept (c : Dev nD) {b : Ref sig .tc} (hb : Kept b) :
    W6 m ρ c (Proc.devRef .tc b) = W1 m ρ c (Proc.devRef .tc b) := by
  refine Eq.trans ?_ (W5_kept m ρ c hb)
  rcases hb with rfl | rfl | rfl | rfl | rfl | rfl <;> exact skip_host hostOps2_1
theorem W7_kept (c : Dev nD) {b : Ref sig .tc} (hb : Kept b) :
    W7 m ρ c (Proc.devRef .tc b) = W1 m ρ c (Proc.devRef .tc b) := by
  refine Eq.trans ?_ (W6_kept m ρ c hb)
  rcases hb with rfl | rfl | rfl | rfl | rfl | rfl <;> exact skip_host hostOps2_2
theorem W8_kept (c : Dev nD) {b : Ref sig .tc} (hb : Kept b) :
    W8 m ρ c (Proc.devRef .tc b) = W1 m ρ c (Proc.devRef .tc b) := by
  refine Eq.trans ?_ (W7_kept m ρ c hb)
  rcases hb with rfl | rfl | rfl | rfl | rfl | rfl <;> exact skip_host hostOps2_3
theorem W9_kept (c : Dev nD) {b : Ref sig .tc} (hb : Kept b) :
    W9 m ρ c (Proc.devRef .tc b) = W1 m ρ c (Proc.devRef .tc b) := by
  refine Eq.trans ?_ (W8_kept m ρ c hb)
  rcases hb with rfl | rfl | rfl | rfl | rfl | rfl <;> exact W9_of_ne m ρ c _ (by decide)
theorem W10_kept (c : Dev nD) {b : Ref sig .tc} (hb : Kept b) :
    W10 m ρ c (Proc.devRef .tc b) = W1 m ρ c (Proc.devRef .tc b) := by
  refine Eq.trans ?_ (W9_kept m ρ c hb)
  rcases hb with rfl | rfl | rfl | rfl | rfl | rfl <;> exact skip_host hostOps3

/-! ## What the first host stretch leaves -/

/-- The edge list as launched. -/
abbrev edges (c : Dev nD) : IVec S2x1600000 32 := m ((c : Thread nD τ).loc main_arg1)

theorem W1_arg0 (c : Dev nD) : W1 m ρ c (Proc.devRef .tc main_arg0) = m ((c : Thread nD τ).loc main_arg0) :=
  (skip_host hostOps0).trans rfl
theorem W1_arg2 (c : Dev nD) : W1 m ρ c (Proc.devRef .tc main_arg2) = m ((c : Thread nD τ).loc main_arg2) :=
  (skip_host hostOps0).trans rfl
theorem W1_arg3 (c : Dev nD) : W1 m ρ c (Proc.devRef .tc main_arg3) = m ((c : Thread nD τ).loc main_arg3) :=
  (skip_host hostOps0).trans rfl
theorem W1_arg4 (c : Dev nD) : W1 m ρ c (Proc.devRef .tc main_arg4) = m ((c : Thread nD τ).loc main_arg4) :=
  (skip_host hostOps0).trans rfl
theorem W1_arg5 (c : Dev nD) : W1 m ρ c (Proc.devRef .tc main_arg5) = m ((c : Thread nD τ).loc main_arg5) :=
  (skip_host hostOps0).trans rfl

theorem kept_arg3 : Kept main_arg3 := Or.inl rfl
theorem kept_arg4 : Kept main_arg4 := Or.inr (Or.inl rfl)
theorem kept_arg5 : Kept main_arg5 := Or.inr (Or.inr (Or.inl rfl))
theorem kept_v1 : Kept main_v1 := Or.inr (Or.inr (Or.inr (Or.inl rfl)))
theorem kept_v3 : Kept main_v3 := Or.inr (Or.inr (Or.inr (Or.inr (Or.inl rfl))))
theorem kept_v25 : Kept main_v25 := Or.inr (Or.inr (Or.inr (Or.inr (Or.inr rfl))))

/-! ## The self-loop column: written by the first stretch, read through a window by the second and fourth kernels -/

theorem W3_v27 (c : Dev nD) : W3 m ρ c (Proc.devRef .tc main_v27) = W1 m ρ c (Proc.devRef .tc main_v27) :=
  (skip_host hostOps1).trans (W2_of_ne m ρ c _ (by decide))
/-- A kernel leaves an array it only reads as it found it. -/
theorem W4_v27 (c : Dev nD) : W4 m ρ c (Proc.devRef .tc main_v27) = W3 m ρ c (Proc.devRef .tc main_v27) :=
  (W4_arr m ρ c 2).trans (((dat1 (V3 m ρ) c).arrAt_in 2 rfl _).trans (A_eq1 (V3 m ρ) c 2))
theorem W10_v27 (c : Dev nD) : W10 m ρ c (Proc.devRef .tc main_v27) = W1 m ρ c (Proc.devRef .tc main_v27) :=
  (skip_host hostOps3).trans ((W9_of_ne m ρ c _ (by decide)).trans ((skip_host hostOps2_3).trans ((skip_host hostOps2_2).trans
    ((skip_host hostOps2_1).trans ((skip_host hostOps2).trans ((W4_v27 m ρ c).trans (W3_v27 m ρ c)))))))

end Cert.KernelIdeal.Fold

end
-- ==== Proof.KFoldRead.lean ====
/-
  What each buffer of the kernel program holds when a kernel or the return reads it. The first host stretch leaves the
  two rows of the edge list, the edge weights and the self-loop column; between the kernels the host gathers, scales and
  sums along the edges, reshapes the biases and widens the second layer's weights; at the end it takes column 0.
-/
import proofs.«120777_j44702019616965_1_alg».proof.Proof.KFoldKept

set_option maxRecDepth 16384

noncomputable section

namespace Cert.KernelIdeal.Fold

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The first stretch -/

theorem W1_v1 (c : Dev nD) : W1 m ρ c (Proc.devRef .tc main_v1) = Stage.srcRow (edges m c) := by
  show StableHlo.after hostOps0 (W0 m ρ c) (Proc.devRef .tc main_v1) = _
  after_results
  rfl
theorem W1_v3 (c : Dev nD) : W1 m ρ c (Proc.devRef .tc main_v3) = Stage.dstRow (edges m c) := by
  show StableHlo.after hostOps0 (W0 m ρ c) (Proc.devRef .tc main_v3) = _
  after_results
  rfl
set_option maxHeartbeats 4000000 in
theorem W1_v25 (c : Dev nD) : W1 m ρ c (Proc.devRef .tc main_v25) = Stage.norm (F := F) (edges m c) := by
  show StableHlo.after hostOps0 (W0 m ρ c) (Proc.devRef .tc main_v25) = _
  after_results
  rfl
set_option maxHeartbeats 4000000 in
theorem W1_v27 (c : Dev nD) : W1 m ρ c (Proc.devRef .tc main_v27) = Stage.dinv2 (F := F) (edges m c) := by
  show StableHlo.after hostOps0 (W0 m ρ c) (Proc.devRef .tc main_v27) = _
  after_results
  rfl

/-! ## The first kernel's inputs: two arguments as launched -/

theorem V1_arg0 (c : Dev nD) : V1 m ρ c main_arg0 = m ((c : Thread nD τ).loc main_arg0) := W1_arg0 m ρ c
theorem V1_arg2 (c : Dev nD) : V1 m ρ c main_arg2 = m ((c : Thread nD τ).loc main_arg2) := W1_arg2 m ρ c

/-! ## The second kernel's inputs -/

theorem W2_v28 (c : Dev nD) : W2 m ρ c (Proc.devRef .tc main_v28) = (dat0 (V1 m ρ) c).arrAt 2 cfg0.N := W2_arr m ρ c 2
/-- The first product, as the first kernel left it. -/
theorem V3_v28 (c : Dev nD) : V3 m ρ c main_v28 = (dat0 (V1 m ρ) c).arrAt 2 cfg0.N :=
  (skip_host hostOps1).trans (W2_v28 m ρ c)
/-- The self-loop column. -/
theorem V3_v27 (c : Dev nD) : V3 m ρ c main_v27 = Stage.dinv2 (F := F) (edges m c) :=
  (W3_v27 m ρ c).trans (W1_v27 m ρ c)
set_option maxHeartbeats 4000000 in
/-- The first layer's aggregate: the host's gather, scale and sum applied to the first product. -/
theorem V3_v41 (c : Dev nD) :
    V3 m ρ c main_v41 = Stage.agg (F := F) ((dat0 (V1 m ρ) c).arrAt 2 cfg0.N) (edges m c) := by
  show StableHlo.after hostOps1 (W2 m ρ c) (Proc.devRef .tc main_v41) = _
  after_results
  rw [W2_v28 m ρ c, (W2_kept m ρ c kept_v1).trans (W1_v1 m ρ c), (W2_kept m ρ c kept_v3).trans (W1_v3 m ρ c),
    (W2_kept m ρ c kept_v25).trans (W1_v25 m ρ c)]
  rfl
/-- The first bias as a row. -/
theorem V3_v42 (c : Dev nD) : V3 m ρ c main_v42 = Stage.brow (F := F) (m ((c : Thread nD τ).loc main_arg3)) := by
  show StableHlo.after hostOps1 (W2 m ρ c) (Proc.devRef .tc main_v42) = _
  after_results
  rw [(W2_kept m ρ c kept_arg3).trans (W1_arg3 m ρ c)]
  rfl

/-! ## The third kernel's inputs -/

/-- The first layer's result, as the second kernel left it. -/
theorem V8_v43 (c : Dev nD) : V8 m ρ c main_v43 = (dat1 (V3 m ρ) c).arrAt 4 cfg1.N :=
  (skip_host hostOps2_3).trans ((skip_host hostOps2_2).trans ((skip_host hostOps2_1).trans ((skip_host hostOps2).trans (W4_arr m ρ c 4))))
/-- The second layer's weights widened to 128 columns. -/
theorem V8_v44 (c : Dev nD) : V8 m ρ c main_v44 = Stage.w2pad (F := F) (m ((c : Thread nD τ).loc main_arg4)) := by
  refine (skip_host hostOps2_3).trans ((skip_host hostOps2_2).trans ?_)
  show StableHlo.after hostOps2_1 (W5 m ρ c) (Proc.devRef .tc main_v44) = _
  after_results
  -- the padding value is the integer 0 made a float; the operand is the fourth argument, untouched since the launch
  refine Eq.trans ?_ (congrArg (fun t => Stage.w2pad (F := F) t) ((W4_kept m ρ c kept_arg4).trans (W1_arg4 m ρ c)))
  rfl

/-! ## The fourth kernel's inputs -/

theorem W9_v46 (c : Dev nD) : W9 m ρ c (Proc.devRef .tc main_v46) = (dat2 (V8 m ρ) c).arrAt 2 cfg2.N := W9_arr m ρ c 2
/-- The second product, as the third kernel left it. -/
theorem V10_v46 (c : Dev nD) : V10 m ρ c main_v46 = (dat2 (V8 m ρ) c).arrAt 2 cfg2.N :=
  (skip_host hostOps3).trans (W9_v46 m ρ c)
/-- The self-loop column again. -/
theorem V10_v27 (c : Dev nD) : V10 m ρ c main_v27 = Stage.dinv2 (F := F) (edges m c) :=
  (W10_v27 m ρ c).trans (W1_v27 m ρ c)
/-- The second bias widened to 128 entries. -/
theorem W9_v45 (c : Dev nD) : W9 m ρ c (Proc.devRef .tc main_v45) = Stage.b2pad (F := F) (m ((c : Thread nD τ).loc main_arg5)) := by
  refine (W9_of_ne m ρ c _ (by decide)).trans ?_
  show StableHlo.after hostOps2_3 (W7 m ρ c) (Proc.devRef .tc main_v45) = _
  after_results
  -- the padding value is the integer 0 made a float; the operand is the fifth argument, untouched since the launch
  refine Eq.trans ?_ (congrArg (fun t => Stage.b2pad (F := F) t) ((W4_kept m ρ c kept_arg5).trans (W1_arg5 m ρ c)))
  rfl
/-- … and as a row. -/
theorem V10_v60 (c : Dev nD) :
    V10 m ρ c main_v60 = Stage.brow (F := F) (Stage.b2pad (F := F) (m ((c : Thread nD τ).loc main_arg5))) := by
  show StableHlo.after hostOps3 (W9 m ρ c) (Proc.devRef .tc main_v60) = _
  after_results
  rw [W9_v45 m ρ c]
  rfl
set_option maxHeartbeats 4000000 in
/-- The second layer's aggregate: the same gather, scale and sum applied to the second product. -/
theorem V10_v59 (c : Dev nD) :
    V10 m ρ c main_v59 = Stage.agg (F := F) ((dat2 (V8 m ρ) c).arrAt 2 cfg2.N) (edges m c) := by
  show StableHlo.after hostOps3 (W9 m ρ c) (Proc.devRef .tc main_v59) = _
  after_results
  rw [W9_v46 m ρ c, (W9_kept m ρ c kept_v1).trans (W1_v1 m ρ c), (W9_kept m ρ c kept_v3).trans (W1_v3 m ρ c),
    (W9_kept m ρ c kept_v25).trans (W1_v25 m ρ c)]
  rfl

/-! ## The result -/

theorem W11_v61 (c : Dev nD) : W11 m ρ c (Proc.devRef .tc main_v61) = (dat3 (V10 m ρ) c).arrAt 4 cfg3.N := W11_arr m ρ c 4
/-- The result buffer is column 0 of what the fourth kernel left. -/
theorem W12_v63 (c : Dev nD) :
    W12 m ρ c (Proc.devRef .tc main_v63) = Stage.outCol (F := F) ((dat3 (V10 m ρ) c).arrAt 4 cfg3.N) := by
  show StableHlo.after hostOps4 (W11 m ρ c) (Proc.devRef .tc main_v63) = _
  after_results
  rw [W11_v61 m ρ c]
  rfl

end Cert.KernelIdeal.Fold

end
-- ==== Proof.KResult.lean ====
/-
  The kernel program's result as one function of its six arguments: two graph-convolution layers, the first followed by
  the rectifier, the second computed 128 columns wide with its weights and bias widened by zeros, and column 0 returned.
-/
import proofs.«120777_j44702019616965_1_alg».proof.Proof.KStage

noncomputable section

namespace Cert.KernelIdeal.Stage

open Idealize.ShloMosaic Cert.KernelIdeal

/-- The first layer: x·W1 aggregated along the edges, plus the self-loop term, plus the bias, rectified. -/
def layer1 (x : FVec Ideal S100000x64 .f32) (ei : IVec S2x1600000 32) (w1 : FVec Ideal S64x128 .f32) (b1 : FVec Ideal S128 .f32) :
    FVec Ideal S100000x128 .f32 :=
  reluComb (agg (F := Ideal) (lin64 x w1) ei) (lin64 x w1) (dinv2 (F := Ideal) ei) (brow (F := Ideal) b1)

/-- The second layer's product, 128 columns wide: only column 0 carries the layer's one weight column. -/
def prod2 (x : FVec Ideal S100000x64 .f32) (ei : IVec S2x1600000 32) (w1 : FVec Ideal S64x128 .f32) (b1 : FVec Ideal S128 .f32)
    (w2 : FVec Ideal S128x1 .f32) : FVec Ideal S100000x128 .f32 :=
  lin128 (layer1 x ei w1 b1) (w2pad (F := Ideal) w2)

/-- The program's result: column 0 of the second layer's combination. -/
def result (x : FVec Ideal S100000x64 .f32) (ei : IVec S2x1600000 32) (w1 : FVec Ideal S64x128 .f32) (b1 : FVec Ideal S128 .f32)
    (w2 : FVec Ideal S128x1 .f32) (b2 : FVec Ideal S1 .f32) : FVec Ideal S100000 .f32 :=
  outCol (F := Ideal) (comb (agg (F := Ideal) (prod2 x ei w1 b1 w2) ei) (prod2 x ei w1 b1 w2) (dinv2 (F := Ideal) ei)
    (brow (F := Ideal) (b2pad (F := Ideal) b2)))

end Cert.KernelIdeal.Stage

end
-- ==== Proof.Region0.lean ====
/-
  The first matrix kernel: 50 row blocks of 2000 rows, each block of the output the product of that block of x with the whole of w. Over the extended reals the narrowing of the operands to half width is the identity and the product into a zero accumulator is the plain sum over k, so the blocks together are the whole product x·w.
-/
import proofs.«120777_j44702019616965_1_alg».proof.Proof.Gen.KernelIdeal.Frame
import proofs.«120777_j44702019616965_1_alg».proof.Proof.KStage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## The product of one block: the contraction read coordinate by coordinate -/

/-- In the block product's dimension numbers, the left operand's row at output index i and contraction index q is the output's row. -/
theorem mm64_lhs_row (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- The left operand's column is the contraction index. -/
theorem mm64_lhs_col (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- The right operand's row is the contraction index. -/
theorem mm64_rhs_row (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- The right operand's column is the output's column. -/
theorem mm64_rhs_col (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- What the kernel body computes from a 2000×64 block a and the 64×128 matrix b, at entry (p, q): the sum over k of
    a(p, k)·b(k, q). Narrowing the operands changes nothing over the extended reals, and the accumulator starts at zero. -/
theorem blockProduct64_apply (x0 : Vec Ideal S2000x64 .f32) (x1 : Vec Ideal S64x128 .f32) (p : Fin 2000) (q : Fin 128) :
    k0_pay1 (F := Ideal) x0 x1 (ix2 p q) = ∑ k : Fin 64, x0 (ix2 p k) * x1 (ix2 k q) := by
  unfold k0_pay1
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun a => Fin.ext (by
    match a with
    | ⟨0, _⟩ => exact mm64_lhs_row _ _
    | ⟨1, _⟩ => exact (mm64_lhs_col _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun a => Fin.ext (by
    match a with
    | ⟨0, _⟩ => exact (mm64_rhs_row _ _).trans hk
    | ⟨1, _⟩ => exact mm64_rhs_col _ _)
  rw [el, er]
  rfl

/-- If the block a is rows 2000n … 2000n + 1999 of x and b is w, then entry j of the block product is entry i of x·w,
    where i is j moved down by 2000n rows. -/
theorem blockProduct64_eq_lin64 (x : FVec Ideal S100000x64 .f32) (w : FVec Ideal S64x128 .f32)
    (x0 : Vec Ideal S2000x64 .f32) (x1 : Vec Ideal S64x128 .f32) (n : Nat)
    (h0 : ∀ (y : S2000x64.Idx) (i : S100000x64.Idx), (i 0).val = n * 2000 + (y 0).val → (i 1).val = (y 1).val → x0 y = x i)
    (h1 : x1 = w)
    (j : S2000x128.Idx) (i : S100000x128.Idx) (hi0 : (i 0).val = n * 2000 + (j 0).val) (hi1 : (i 1).val = (j 1).val) :
    k0_pay1 (F := Ideal) x0 x1 j = Stage.lin64 x w i := by
  obtain ⟨p, q, rfl⟩ : ∃ (p : Fin 2000) (q : Fin 128), j = ix2 p q := ⟨j 0, j 1, eq_ix2 j⟩
  rw [blockProduct64_apply]
  subst h1
  unfold Stage.lin64
  refine Finset.sum_congr rfl fun k _ => ?_
  have hq : i 1 = q := Fin.ext hi1
  rw [hq, h0 (ix2 p k) (ix2 (i 0) k) hi0 rfl]

/-! ## From the blocks to the whole array -/

/-- The offsets (0, 0) of an access to a whole block. -/
theorem zeroOffsets64 : (![0, 0] : Fin 2 → Nat) = fun _ => 0 := funext fun a => by fin_cases a <;> rfl

/-- Where the three windows stand at grid point t: x's and the output's at row block t, column block 0; w's at block (0, 0). -/
theorem blockIndex64 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is rows 2000t … 2000t + 1999 of x·w, for x and w the arrays the kernel finds. -/
theorem written64_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Stage.lin64 (V c main_arg0) (V c main_arg2)) := by
  show (cfg0.win 2).cut (grid0.coords t) ((dat0 V c).after 2 t) = _
  rw [after0_2]
  unfold out0_2
  rw [View.canon_unit_zero zeroOffsets64]
  simp only [View.ld_unit_zero (S := S2000x64) zeroOffsets64, View.ld_unit_zero (S := S64x128) zeroOffsets64]
  obtain ⟨e00, e01, e10, e11, e20, e21⟩ := blockIndex64 t
  funext j
  show k0_pay1 (iblk0 V c 0 t) (iblk0 V c 1 t) j = Stage.lin64 (V c main_arg0) (V c main_arg2) (((cfg0.win 2).blk t).view.emb j)
  refine blockProduct64_eq_lin64 (V c main_arg0) (V c main_arg2) (iblk0 V c 0 t) (iblk0 V c 1 t) t.val ?_ ?_ j _ ?_ ?_
  · -- the block of x at point t is x's rows from 2000t on
    intro y i hi0 hi1
    show V c main_arg0 (((cfg0.win 0).blk t).view.emb y) = V c main_arg0 i
    congr 1
    funext a
    apply Fin.ext
    match a with
    | ⟨0, _⟩ => show win0_0.index t (0 : Fin 2) * 2000 + 1 * (y 0).val = (i 0).val; rw [e00, hi0]; omega
    | ⟨1, _⟩ => show win0_0.index t (1 : Fin 2) * 64 + 1 * (y 1).val = (i 1).val; rw [e01, hi1]; omega
  · -- the block of w at every point is the whole of w
    funext y
    show V c main_arg2 (((cfg0.win 1).blk t).view.emb y) = V c main_arg2 y
    congr 1
    funext a
    apply Fin.ext
    match a with
    | ⟨0, _⟩ => show win0_1.index t (0 : Fin 2) * 64 + 1 * (y 0).val = (y 0).val; rw [e10]; omega
    | ⟨1, _⟩ => show win0_1.index t (1 : Fin 2) * 128 + 1 * (y 1).val = (y 1).val; rw [e11]; omega
  · show win0_2.index t (0 : Fin 2) * 2000 + 1 * (j 0).val = t.val * 2000 + (j 0).val
    rw [e20]; omega
  · show win0_2.index t (1 : Fin 2) * 128 + 1 * (j 1).val = (j 1).val
    rw [e21]; omega

/-- An index of the output array lies in point t's block iff each coordinate lies in the block's range on its axis. -/
theorem mem_outBlock64 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- Every entry (r, s) of the output is written: by the point r / 2000, whose block holds all 128 columns. -/
theorem covered64 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := rfl
  have ht : (i 0).val / 2000 < cfg0.N := by rw [hN]; omega
  obtain ⟨-, -, -, -, e20, e21⟩ := blockIndex64 ⟨(i 0).val / 2000, ht⟩
  have e20' : win0_2.index ⟨(i 0).val / 2000, ht⟩ (0 : Fin 2) = (i 0).val / 2000 := e20
  refine ⟨⟨(i 0).val / 2000, ht⟩, flush0_2 _, ?_⟩
  rw [mem_outBlock64]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e20']; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e21]; omega

/-- After the first kernel's run its output array holds x·w, whatever the arrays x and w are at its entry. -/
theorem region0 (V : (c : Dev nD) → (b : Ref sig .tc) → Buf (Elt Ideal) ((c : Thread nD τ).loc b)) (c : Dev nD)
    (x : FVec Ideal S100000x64 .f32) (w : FVec Ideal S64x128 .f32)
    (hx : V c main_arg0 = x) (hw : V c main_arg2 = w) :
    (dat0 (F := Ideal) V c).arrAt 2 cfg0.N = Stage.lin64 x w := by
  subst hx hw
  exact (dat0 V c).arrAt_eq_of_cover 2 (Stage.lin64 (V c main_arg0) (V c main_arg2)) (fun t _ => written64_eq V c t) covered64

end Cert.KernelIdeal.RegionValue

end
-- ==== Proof.Region1.lean ====
/-
  The second matrix kernel: the first layer's combination. Per block of 2000 rows: the aggregate a, plus the product h times the self-loop column d spread over the 128 columns, plus the bias row b spread over the rows, then max with zero.
-/
import proofs.«120777_j44702019616965_1_alg».proof.Proof.Gen.KernelIdeal.Frame
import proofs.«120777_j44702019616965_1_alg».proof.Proof.KStage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## The body's arithmetic at one entry of a block -/

/-- A one-column matrix spread over b columns reads, at entry (p, c), the column's entry in row p. -/
theorem colSpread1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body at entry (p, q) of its 2000×128 block: the first block's entry, plus the second block's entry times the
    column's entry in row p, plus the row's entry in column q, and then the maximum with zero. The casts to the same shape change nothing, the
    column is spread along the columns and the row along the rows, and the constant's word is the number zero. -/
theorem body1_apply (x0 x1 : Vec Ideal S2000x128 .f32) (x2 : Vec Ideal S2000x1 .f32) (x3 : Vec Ideal S1x128 .f32)
    (p : Fin 2000) (q : Fin 128) :
    k1_pay1 x0 x1 x2 x3 (ix2 p q)
      = max ((x0 (ix2 p q) + x1 (ix2 p q) * x2 (ix2 p (0 : Fin 1))) + x3 (ix2 (0 : Fin 1) q)) 0 := by
  unfold k1_pay1
  simp only [shapeCast_self]
  rw [maximumf_apply, addf_apply, addf_apply, mulf_apply, broadcast_apply, colSpread1_apply,
    broadcastTo_1b_ab_apply]
  exact congrArg _ Ideal.ofBits_zero_f32

/-- The same value, read off the four whole arrays: when the two matrix entries sit at index i, the column's entry in
    row i₀ and the row's entry in column i₁, the body's value is the layer's combination at i. -/
theorem entry1 (A H : FVec Ideal S100000x128 .f32) (D : FVec Ideal S100000x1 .f32) (B : FVec Ideal S1x128 .f32)
    (i i0 i1 : S100000x128.Idx) (i2 : S100000x1.Idx) (i3 : S1x128.Idx)
    (h0 : i0 = i) (h1 : i1 = i) (h2 : i2 = ix2 (i 0) (0 : Fin 1)) (h3 : i3 = ix2 (0 : Fin 1) (i 1)) :
    max ((A i0 + H i1 * D i2) + B i3) 0 = Stage.reluComb A H D B i := by
  subst h0 h1 h2 h3; rfl

/-! ## Where the blocks sit -/

/-- Every access of the body starts at the origin of its buffer. -/
theorem origin1 : (![0, 0] : Fin 2 → Nat) = fun _ => 0 := funext fun a => by fin_cases a <;> rfl

/-- The block indices at grid point t, point by point over the 50 points: the two matrix inputs sit at the output's
    block; the column at the output's block of rows, in its one block of columns; the row at its one block of rows and
    the output's block of columns; and the output's block is (t, 0). -/
theorem blockIndex1 : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = 0
    ∧ win1_3.index t (0 : Fin 2) = 0 ∧ win1_3.index t (1 : Fin 2) = win1_4.index t (1 : Fin 2)
    ∧ win1_4.index t (0 : Fin 2) = t.val ∧ win1_4.index t (1 : Fin 2) = 0 :=
  (by decide +kernel : ∀ t : Fin grid1.N, _)

/-! ## What one grid point writes back -/

/-- Grid point t writes back block t of the layer's combination of the four arrays as the kernel finds them. Entry
    (p, q) of the block is the body's value there; each input block's entry is its array's entry at block index times
    block size plus the coordinate inside the block, which by the block indices above is the output's own array index
    for the two matrices, its row for the column, and its column for the row. -/
theorem writeBack1 (V : (c : Dev nD) → (b : Ref sig .tc) → Buf (Elt Ideal) ((c : Thread nD τ).loc b)) (c : Dev nD)
    (t : Fin cfg1.N) :
    (dat1 (F := Ideal) V c).flushed 4 t = ((cfg1.win 4).blk t).view.read (Elt Ideal)
      (Stage.reluComb (V c main_v41) (V c main_v28) (V c main_v27) (V c main_v42)) := by
  show (cfg1.win 4).cut (grid1.coords t) ((dat1 V c).after 4 t) = _
  rw [after1_4]
  unfold out1_4
  rw [View.canon_unit_zero origin1]
  simp only [View.ld_unit_zero (S := S2000x128) origin1, View.ld_unit_zero (S := S2000x1) origin1,
    View.ld_unit_zero (S := S1x128) origin1]
  funext j
  obtain ⟨p, q, rfl⟩ : ∃ (p : Fin 2000) (q : Fin 128), j = ix2 p q := ⟨j 0, j 1, eq_ix2 j⟩
  refine (body1_apply _ _ _ _ p q).trans ?_
  obtain ⟨e00, e01, e10, e11, e20, e21, e30, e31, e40, e41⟩ := blockIndex1 t
  refine entry1 (V c main_v41) (V c main_v28) (V c main_v27) (V c main_v42)
    (((cfg1.win 4).blk t).view.emb (ix2 p q))
    (((cfg1.win 0).blk t).view.emb (ix2 p q)) (((cfg1.win 1).blk t).view.emb (ix2 p q))
    (((cfg1.win 2).blk t).view.emb (ix2 p (0 : Fin 1))) (((cfg1.win 3).blk t).view.emb (ix2 (0 : Fin 1) q))
    ?_ ?_ ?_ ?_
  · funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * q.val = win1_4.index t (1 : Fin 2) * 128 + 1 * q.val; omega
  · funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 128 + 1 * q.val = win1_4.index t (1 : Fin 2) * 128 + 1 * q.val; omega
  · funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 1 + 1 * 0 = 0; omega
  · funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega

/-! ## The blocks cover the array -/

/-- An index of the output array lies in point t's block exactly when, on each axis, its coordinate lies in the
    block's range: from block index times block size, for block size many. -/
theorem mem_block1 (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v43).slice (win1_4.rect t)).set ↔ _
  rw [View.set_slice_whole, Rect.mem_set_unit]
  exact Iff.rfl

/-- Every index (r, s) of the output array is written back by some point: the point r / 2000, whose block holds rows
    2000·(r / 2000) up to the next 2000 and all 128 columns; there are 50 points and 100000 = 50·2000 rows. -/
theorem rows_covered1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 50 := N_1
  have ht : (i 0).val / 2000 < grid1.N := by omega
  refine ⟨⟨(i 0).val / 2000, ht⟩, flush1_4 _, ?_⟩
  obtain ⟨-, -, -, -, -, -, -, -, e40, e41⟩ := blockIndex1 ⟨(i 0).val / 2000, ht⟩
  rw [mem_block1]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    have e : win1_4.index ⟨(i 0).val / 2000, ht⟩ (0 : Fin 2) = (i 0).val / 2000 := e40
    omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    omega

/-! ## The whole array -/

/-- After the second kernel's run its output array holds max((a + h·d) + b, 0) entry by entry. -/
theorem region1 (V : (c : Dev nD) → (b : Ref sig .tc) → Buf (Elt Ideal) ((c : Thread nD τ).loc b)) (c : Dev nD)
    (a h : FVec Ideal S100000x128 .f32) (d : FVec Ideal S100000x1 .f32) (b : FVec Ideal S1x128 .f32)
    (ha : V c main_v41 = a) (hh : V c main_v28 = h) (hd : V c main_v27 = d) (hb : V c main_v42 = b) :
    (dat1 (F := Ideal) V c).arrAt 4 cfg1.N = Stage.reluComb a h d b := by
  subst ha hh hd hb
  exact (dat1 (F := Ideal) V c).arrAt_eq_of_cover 4 _ (fun t _ => writeBack1 V c t) rows_covered1

end Cert.KernelIdeal.RegionValue

end
-- ==== Proof.Region2.lean ====
/-
  The third matrix kernel: the second layer's product, 50 row blocks of 2000 rows of h against the whole 128-column weight matrix w; over the extended reals the blocks together are h·w.
-/
import proofs.«120777_j44702019616965_1_alg».proof.Proof.Gen.KernelIdeal.Frame
import proofs.«120777_j44702019616965_1_alg».proof.Proof.KStage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## The product of one block: the contraction read coordinate by coordinate -/

/-- In the block product's dimension numbers, the left operand's row at output index i and contraction index q is the output's row. -/
theorem mm128_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction index. -/
theorem mm128_lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction index. -/
theorem mm128_rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem mm128_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- What the kernel body computes from a 2000×128 block a and the 128×128 matrix b, at entry (p, q): the sum over k of
    a(p, k)·b(k, q). Recasting an operand to its own shape and narrowing it change nothing over the extended reals, and the accumulator starts at zero. -/
theorem blockProduct128_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  simp only [matmul, shapeCast_self]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact mm128_lhs_row _ _
    | ⟨1, _⟩ => exact (mm128_lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (mm128_rhs_row _ _).trans hk
    | ⟨1, _⟩ => exact mm128_rhs_col _ _)
  rw [el, er]
  rfl

/-- If the block a is rows 2000n … 2000n + 1999 of h and b is w, then entry j of the block product is entry i of h·w,
    where i is j moved down by 2000n rows. -/
theorem blockProduct128_eq_lin128 (h : FVec Ideal S100000x128 .f32) (w : FVec Ideal S128x128 .f32)
    (x0 : Vec Ideal S2000x128 .f32) (x1 : Vec Ideal S128x128 .f32) (n : Nat)
    (h0 : ∀ (y : S2000x128.Idx) (i : S100000x128.Idx), (i 0).val = n * 2000 + (y 0).val → (i 1).val = (y 1).val → x0 y = h i)
    (h1 : x1 = w)
    (j : S2000x128.Idx) (i : S100000x128.Idx) (hi0 : (i 0).val = n * 2000 + (j 0).val) (hi1 : (i 1).val = (j 1).val) :
    k2_pay1 (F := Ideal) x0 x1 j = Stage.lin128 h w i := by
  obtain ⟨p, q, rfl⟩ : ∃ (p : Fin 2000) (q : Fin 128), j = ix2 p q := ⟨j 0, j 1, eq_ix2 j⟩
  rw [blockProduct128_apply]
  subst h1
  unfold Stage.lin128
  refine Finset.sum_congr rfl fun k _ => ?_
  have hq : i 1 = q := Fin.ext hi1
  rw [hq, h0 (ix2 p k) (ix2 (i 0) k) hi0 rfl]

/-! ## From the blocks to the whole array -/

/-- The offsets (0, 0) of an access to a whole block. -/
theorem zeroOffsets128 : (![0, 0] : Fin 2 → Nat) = fun _ => 0 := funext fun a => by fin_cases a <;> rfl

/-- Where the three windows stand at grid point t: h's and the output's at row block t, column block 0; w's at block (0, 0). -/
theorem blockIndex128 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is rows 2000t … 2000t + 1999 of h·w, for h and w the arrays the kernel finds. -/
theorem written128_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Stage.lin128 (V c main_v43) (V c main_v44)) := by
  show (cfg2.win 2).cut (grid2.coords t) ((dat2 V c).after 2 t) = _
  rw [after2_2]
  unfold out2_2
  rw [View.canon_unit_zero zeroOffsets128]
  simp only [View.ld_unit_zero (S := S2000x128) zeroOffsets128, View.ld_unit_zero (S := S128x128) zeroOffsets128]
  obtain ⟨e00, e01, e10, e11, e20, e21⟩ := blockIndex128 t
  funext j
  show k2_pay1 (iblk2 V c 0 t) (iblk2 V c 1 t) j = Stage.lin128 (V c main_v43) (V c main_v44) (((cfg2.win 2).blk t).view.emb j)
  refine blockProduct128_eq_lin128 (V c main_v43) (V c main_v44) (iblk2 V c 0 t) (iblk2 V c 1 t) t.val ?_ ?_ j _ ?_ ?_
  · -- the block of h at point t is h's rows from 2000t on
    intro y i hi0 hi1
    show V c main_v43 (((cfg2.win 0).blk t).view.emb y) = V c main_v43 i
    congr 1
    funext a
    apply Fin.ext
    match a with
    | ⟨0, _⟩ => show win2_0.index t (0 : Fin 2) * 2000 + 1 * (y 0).val = (i 0).val; rw [e00, hi0]; omega
    | ⟨1, _⟩ => show win2_0.index t (1 : Fin 2) * 128 + 1 * (y 1).val = (i 1).val; rw [e01, hi1]; omega
  · -- the block of w at every point is the whole of w
    funext y
    show V c main_v44 (((cfg2.win 1).blk t).view.emb y) = V c main_v44 y
    congr 1
    funext a
    apply Fin.ext
    match a with
    | ⟨0, _⟩ => show win2_1.index t (0 : Fin 2) * 128 + 1 * (y 0).val = (y 0).val; rw [e10]; omega
    | ⟨1, _⟩ => show win2_1.index t (1 : Fin 2) * 128 + 1 * (y 1).val = (y 1).val; rw [e11]; omega
  · show win2_2.index t (0 : Fin 2) * 2000 + 1 * (j 0).val = t.val * 2000 + (j 0).val
    rw [e20]; omega
  · show win2_2.index t (1 : Fin 2) * 128 + 1 * (j 1).val = (j 1).val
    rw [e21]; omega

/-- An index of the output array lies in point t's block iff each coordinate lies in the block's range on its axis. -/
theorem mem_outBlock128 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every entry (r, s) of the output is written: by the point r / 2000, whose block holds all 128 columns. -/
theorem covered128 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := rfl
  have ht : (i 0).val / 2000 < cfg2.N := by rw [hN]; omega
  obtain ⟨-, -, -, -, e20, e21⟩ := blockIndex128 ⟨(i 0).val / 2000, ht⟩
  have e20' : win2_2.index ⟨(i 0).val / 2000, ht⟩ (0 : Fin 2) = (i 0).val / 2000 := e20
  refine ⟨⟨(i 0).val / 2000, ht⟩, flush2_2 _, ?_⟩
  rw [mem_outBlock128]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e20']; omega
  | ⟨1, _⟩ =>
    show win2_2.index ⟨(i 0).val / 2000, ht⟩ (1 : Fin 2) * 128 ≤ (i 1).val ∧ (i 1).val < win2_2.index ⟨(i 0).val / 2000, ht⟩ (1 : Fin 2) * 128 + 128
    rw [e21]; omega

/-- After the third kernel's run its output array holds h·w, whatever the arrays h and w are at its entry. -/
theorem region2 (V : (c : Dev nD) → (b : Ref sig .tc) → Buf (Elt Ideal) ((c : Thread nD τ).loc b)) (c : Dev nD)
    (h : FVec Ideal S100000x128 .f32) (w : FVec Ideal S128x128 .f32)
    (hh : V c main_v43 = h) (hw : V c main_v44 = w) :
    (dat2 (F := Ideal) V c).arrAt 2 cfg2.N = Stage.lin128 h w := by
  subst hh hw
  exact (dat2 V c).arrAt_eq_of_cover 2 (Stage.lin128 (V c main_v43) (V c main_v44)) (fun t _ => written128_eq V c t) covered128

end Cert.KernelIdeal.RegionValue

end
-- ==== Proof.Region3.lean ====
/-
  The fourth matrix kernel: the second layer's combination, the same as the first layer's without the rectifier.
-/
import proofs.«120777_j44702019616965_1_alg».proof.Proof.Gen.KernelIdeal.Frame
import proofs.«120777_j44702019616965_1_alg».proof.Proof.KStage
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## The body's arithmetic at one entry of a block -/

/-- A one-column matrix spread over b columns reads, at entry (p, c), the column's entry in row p. -/
theorem colSpread3_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body at entry (p, q) of its 2000×128 block: the first block's entry, plus the second block's entry times the
    column's entry in row p, plus the row's entry in column q. The casts to the same shape change nothing, the
    column is spread along the columns and the row along the rows. -/
theorem body3_apply (x0 x1 : Vec Ideal S2000x128 .f32) (x2 : Vec Ideal S2000x1 .f32) (x3 : Vec Ideal S1x128 .f32)
    (p : Fin 2000) (q : Fin 128) :
    k3_pay1 x0 x1 x2 x3 (ix2 p q)
      = (x0 (ix2 p q) + x1 (ix2 p q) * x2 (ix2 p (0 : Fin 1))) + x3 (ix2 (0 : Fin 1) q) := by
  unfold k3_pay1
  simp only [shapeCast_self]
  rw [addf_apply, addf_apply, mulf_apply, colSpread3_apply,
    broadcastTo_1b_ab_apply]

/-- The same value, read off the four whole arrays: when the two matrix entries sit at index i, the column's entry in
    row i₀ and the row's entry in column i₁, the body's value is the layer's combination at i. -/
theorem entry3 (A H : FVec Ideal S100000x128 .f32) (D : FVec Ideal S100000x1 .f32) (B : FVec Ideal S1x128 .f32)
    (i i0 i1 : S100000x128.Idx) (i2 : S100000x1.Idx) (i3 : S1x128.Idx)
    (h0 : i0 = i) (h1 : i1 = i) (h2 : i2 = ix2 (i 0) (0 : Fin 1)) (h3 : i3 = ix2 (0 : Fin 1) (i 1)) :
    (A i0 + H i1 * D i2) + B i3 = Stage.comb A H D B i := by
  subst h0 h1 h2 h3; rfl

/-! ## Where the blocks sit -/

/-- Every access of the body starts at the origin of its buffer. -/
theorem origin3 : (![0, 0] : Fin 2 → Nat) = fun _ => 0 := funext fun a => by fin_cases a <;> rfl

/-- The block indices at grid point t, point by point over the 50 points: the two matrix inputs sit at the output's
    block; the column at the output's block of rows, in its one block of columns; the row at its one block of rows and
    the output's block of columns; and the output's block is (t, 0). -/
theorem blockIndex3 : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = 0
    ∧ win3_3.index t (0 : Fin 2) = 0 ∧ win3_3.index t (1 : Fin 2) = win3_4.index t (1 : Fin 2)
    ∧ win3_4.index t (0 : Fin 2) = t.val ∧ win3_4.index t (1 : Fin 2) = 0 :=
  (by decide +kernel : ∀ t : Fin grid3.N, _)

/-! ## What one grid point writes back -/

/-- Grid point t writes back block t of the layer's combination of the four arrays as the kernel finds them. Entry
    (p, q) of the block is the body's value there; each input block's entry is its array's entry at block index times
    block size plus the coordinate inside the block, which by the block indices above is the output's own array index
    for the two matrices, its row for the column, and its column for the row. -/
theorem writeBack3 (V : (c : Dev nD) → (b : Ref sig .tc) → Buf (Elt Ideal) ((c : Thread nD τ).loc b)) (c : Dev nD)
    (t : Fin cfg3.N) :
    (dat3 (F := Ideal) V c).flushed 4 t = ((cfg3.win 4).blk t).view.read (Elt Ideal)
      (Stage.comb (V c main_v59) (V c main_v46) (V c main_v27) (V c main_v60)) := by
  show (cfg3.win 4).cut (grid3.coords t) ((dat3 V c).after 4 t) = _
  rw [after3_4]
  unfold out3_4
  rw [View.canon_unit_zero origin3]
  simp only [View.ld_unit_zero (S := S2000x128) origin3, View.ld_unit_zero (S := S2000x1) origin3,
    View.ld_unit_zero (S := S1x128) origin3]
  funext j
  obtain ⟨p, q, rfl⟩ : ∃ (p : Fin 2000) (q : Fin 128), j = ix2 p q := ⟨j 0, j 1, eq_ix2 j⟩
  refine (body3_apply _ _ _ _ p q).trans ?_
  obtain ⟨e00, e01, e10, e11, e20, e21, e30, e31, e40, e41⟩ := blockIndex3 t
  refine entry3 (V c main_v59) (V c main_v46) (V c main_v27) (V c main_v60)
    (((cfg3.win 4).blk t).view.emb (ix2 p q))
    (((cfg3.win 0).blk t).view.emb (ix2 p q)) (((cfg3.win 1).blk t).view.emb (ix2 p q))
    (((cfg3.win 2).blk t).view.emb (ix2 p (0 : Fin 1))) (((cfg3.win 3).blk t).view.emb (ix2 (0 : Fin 1) q))
    ?_ ?_ ?_ ?_
  · funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 128 + 1 * q.val = win3_4.index t (1 : Fin 2) * 128 + 1 * q.val; omega
  · funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 128 + 1 * q.val = win3_4.index t (1 : Fin 2) * 128 + 1 * q.val; omega
  · funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  · funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega

/-! ## The blocks cover the array -/

/-- An index of the output array lies in point t's block exactly when, on each axis, its coordinate lies in the
    block's range: from block index times block size, for block size many. -/
theorem mem_block3 (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v61).slice (win3_4.rect t)).set ↔ _
  rw [View.set_slice_whole, Rect.mem_set_unit]
  exact Iff.rfl

/-- Every index (r, s) of the output array is written back by some point: the point r / 2000, whose block holds rows
    2000·(r / 2000) up to the next 2000 and all 128 columns; there are 50 points and 100000 = 50·2000 rows. -/
theorem rows_covered3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 50 := N_3
  have ht : (i 0).val / 2000 < grid3.N := by omega
  refine ⟨⟨(i 0).val / 2000, ht⟩, flush3_4 _, ?_⟩
  obtain ⟨-, -, -, -, -, -, -, -, e40, e41⟩ := blockIndex3 ⟨(i 0).val / 2000, ht⟩
  rw [mem_block3]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    have e : win3_4.index ⟨(i 0).val / 2000, ht⟩ (0 : Fin 2) = (i 0).val / 2000 := e40
    omega
  | ⟨1, _⟩ =>
    show win3_4.index ⟨(i 0).val / 2000, ht⟩ (1 : Fin 2) * 128 ≤ (i 1).val
      ∧ (i 1).val < win3_4.index ⟨(i 0).val / 2000, ht⟩ (1 : Fin 2) * 128 + 128
    omega

/-! ## The whole array -/

/-- After the fourth kernel's run its output array holds (a + h·d) + b entry by entry. -/
theorem region3 (V : (c : Dev nD) → (b : Ref sig .tc) → Buf (Elt Ideal) ((c : Thread nD τ).loc b)) (c : Dev nD)
    (a h : FVec Ideal S100000x128 .f32) (d : FVec Ideal S100000x1 .f32) (b : FVec Ideal S1x128 .f32)
    (ha : V c main_v59 = a) (hh : V c main_v46 = h) (hd : V c main_v27 = d) (hb : V c main_v60 = b) :
    (dat3 (F := Ideal) V c).arrAt 4 cfg3.N = Stage.comb a h d b := by
  subst ha hh hd hb
  exact (dat3 (F := Ideal) V c).arrAt_eq_of_cover 4 _ (fun t _ => writeBack3 V c t) rows_covered3

end Cert.KernelIdeal.RegionValue

end
-- ==== Proof.KValue.lean ====
/-
  The kernel program's result buffer, at the extended reals, is its composed function of the six arguments: the fold of the
  run read back (which buffer each kernel finds where), with each kernel's output array replaced by what that kernel
  computes of its inputs.
-/
import proofs.«120777_j44702019616965_1_alg».proof.Proof.KFoldRead
import proofs.«120777_j44702019616965_1_alg».proof.Proof.KResult
import proofs.«120777_j44702019616965_1_alg».proof.Proof.Region0
import proofs.«120777_j44702019616965_1_alg».proof.Proof.Region1
import proofs.«120777_j44702019616965_1_alg».proof.Proof.Region2
import proofs.«120777_j44702019616965_1_alg».proof.Proof.Region3

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The last boundary's contents at the result buffer: the composed result of the launch contents of the arguments. -/
theorem kernel_value (c : Dev nD) :
    W12 (F := Ideal) m ρ c (Proc.devRef .tc main_v63)
      = Stage.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e0 := RegionValue.region0 (V1 m ρ) c _ _ (Fold.V1_arg0 m ρ c) (Fold.V1_arg2 m ρ c)
  have e1 := RegionValue.region1 (V3 m ρ) c _ _ _ _ (Fold.V3_v41 m ρ c) (Fold.V3_v28 m ρ c) (Fold.V3_v27 m ρ c) (Fold.V3_v42 m ρ c)
  rw [e0] at e1
  have e2 := RegionValue.region2 (V8 m ρ) c _ _ (Fold.V8_v43 m ρ c) (Fold.V8_v44 m ρ c)
  rw [e1] at e2
  have e3 := RegionValue.region3 (V10 m ρ) c _ _ _ _ (Fold.V10_v59 m ρ c) (Fold.V10_v46 m ρ c) (Fold.V10_v27 m ρ c) (Fold.V10_v60 m ρ c)
  rw [e2] at e3
  rw [Fold.W12_v63 m ρ c, e3]
  rfl

end Cert.KernelIdeal.KValue

end
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.KRead.lean ====
/-
  The kernel program's host functions read at one entry, over the extended reals: the aggregation at (n, j) as a sum
  over the edges that end in n; the widened weight matrix and bias at column 0; the self-loop column; column 0 of the
  last matrix as a vector.
-/
import proofs.«120777_j44702019616965_1_alg».proof.Proof.KStage
import proofs.«120777_j44702019616965_1_alg».proof.Proof.LibGatherScatter
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.KRead

open Idealize.ShloMosaic Idealize.ShloMosaic.ValueIdx
open Cert.KernelIdeal Cert.KernelIdeal.Facts₀ Cert.KernelIdeal.Facts
open scoped BigOperators

/-- A vector of edge values turned into a one-column matrix and then copied across 128 columns reads, at (e, j), the
    vector at e: on the way back the column coordinate is dropped (the operand's column axis has extent one) and the row
    coordinate is kept (its extent is not one). -/
theorem bcast_rows_apply (v : FVec Ideal S1600000 .f32) (e : Fin 1600000) (j : Fin 128) :
    broadcastInDim S1600000x128 ![0, 1] bcast_S1600000x1_S1600000x128_0_1
        (broadcastInDim S1600000x1 ![0] bcast_S1600000_S1600000x1_0 v) (ix2 e j) = v (ix1 e) := by
  refine (broadcastInDim_apply _ _ _ (ix2 e j) (ix2 e (0 : Fin 1)) (fun a => ?_)).trans
    (broadcastInDim_apply _ _ _ (ix2 e (0 : Fin 1)) (ix1 e) (fun a => ?_))
  · match a with
    | ⟨0, _⟩ => show e.val = if (1600000 : Nat) = 1 then 0 else e.val; rw [if_neg (by decide)]
    | ⟨1, _⟩ => show 0 = if (1 : Nat) = 1 then 0 else j.val; rw [if_pos rfl]
  · match a with
    | ⟨0, _⟩ => show e.val = if (1600000 : Nat) = 1 then 0 else e.val; rw [if_neg (by decide)]

/-- The aggregation of h at (n, j): the sum, over the edges e that end in n, of h at (source position of e, j) times
    the weight of e (the zero it starts from contributes nothing). The accumulating scatter at (n, j) is the old value,
    here the constant zero, plus the sum of the updates at (e, j) over the edges whose destination is n; each update is
    a product whose first factor, the gather of rows of h, reads h at the edge's clamped source row and column j, and
    whose second factor, the weights copied across the columns, reads the weight of e. -/
theorem agg_apply (h : FVec Ideal S100000x128 .f32) (ei : IVec S2x1600000 32) (n : Fin 100000) (j : Fin 128) :
    Stage.agg (F := Ideal) h ei (ix2 n j)
      = ∑ e ∈ Stage.inEdges ei n, h (ix2 (Stage.srcPos ei e) j) * Stage.norm (F := Ideal) ei (ix1 e) := by
  unfold Stage.agg
  rw [Cert.LibGatherScatter.scatterAdd_rows (N := 100000) (D := 128) (n := 1600000)
    scatter_S100000x128_S1600000x1_S1600000x128_1_0_0_1 rfl rfl rfl rfl _ _ _ n j]
  -- the start value: the scalar zero copied to every entry
  rw [broadcastInDim_scalar_apply, constant_apply, Ideal.ofBits_zero_f32, zero_add]
  -- the edges summed over are by definition those that end in n
  unfold Stage.inEdges
  refine Finset.sum_congr rfl (fun e _ => ?_)
  rw [mulf_apply, bcast_rows_apply]
  rw [Cert.LibGatherScatter.gather_rows (N := 100000) (D := 128) (n := 1600000)
    gather_S100000x128_S1600000x1_S1600000x128_1_0_n_n_0_1_1128 rfl rfl rfl rfl rfl rfl h _ e j (by decide)]
  -- the row read is the source position by definition
  rfl

/-- Column 0 of the widened weight matrix is the one column it was widened from: with no padding in front and none
    between entries, the entry (k, 0) lies inside the original at (k, 0), so the padding value is not read. -/
theorem w2pad_col0 (w2 : FVec Ideal S128x1 .f32) (k : Fin 128) :
    Stage.w2pad (F := Ideal) w2 (ix2 k (0 : Fin 128)) = w2 (ix2 k (0 : Fin 1)) := by
  unfold Stage.w2pad
  refine pad_apply_of_inside _ _ _ w2 _ _ _ (ix2 k (0 : Fin 128)) (ix2 k (0 : Fin 1)) (fun a => ?_)
  match a with
  | ⟨0, _⟩ => show k.val = 0 + k.val * (0 + 1); omega
  | ⟨1, _⟩ => show 0 = 0 + 0 * (0 + 1); omega

/-- Entry (0, 0) of the widened bias as a row is the one bias it was widened from: the row at column 0 is the widened
    vector at 0, and entry 0 of the widened vector lies inside the original at 0. -/
theorem b2row_zero (b2 : FVec Ideal S1 .f32) :
    Stage.brow (F := Ideal) (Stage.b2pad (F := Ideal) b2) (ix2 (0 : Fin 1) (0 : Fin 128)) = b2 (ix1 (0 : Fin 1)) := by
  unfold Stage.brow
  refine (shapeCast_a_1a_apply _ _ (0 : Fin 1) (0 : Fin 128)).trans ?_
  unfold Stage.b2pad
  refine pad_apply_of_inside _ _ _ b2 _ _ _ (ix1 (0 : Fin 128)) (ix1 (0 : Fin 1)) (fun a => ?_)
  match a with
  | ⟨0, _⟩ => show 0 = 0 + 0 * (0 + 1); omega

/-- The bias row at column j is the bias vector at j: a vector viewed as a one-row matrix keeps its entries in order. -/
theorem brow_apply (b : FVec Ideal S128 .f32) (j : Fin 128) :
    Stage.brow (F := Ideal) b (ix2 (0 : Fin 1) j) = b (ix1 j) := by
  unfold Stage.brow
  exact shapeCast_a_1a_apply b _ 0 j

/-- The self-loop column at n is d(n)^(-1/2) squared: a vector viewed as a one-column matrix has, at (n, 0), the
    entry at the same row-major position n, and the product of two vectors is taken entry by entry. -/
theorem dinv2_apply (ei : IVec S2x1600000 32) (n : Fin 100000) :
    Stage.dinv2 (F := Ideal) ei (ix2 n (0 : Fin 1)) = Stage.dinv (F := Ideal) ei (ix1 n) * Stage.dinv (F := Ideal) ei (ix1 n) := by
  unfold Stage.dinv2
  rw [← mulf_apply]
  refine shapeCast_apply _ _ (ix2 n (0 : Fin 1)) (ix1 n) ?_
  rw [Shape.rowMajor_val_two, Shape.rowMajor_val_one]
  show n.val = n.val * 1 + 0
  omega

/-- Column 0 of a matrix, as a vector, at n is the matrix at (n, 0): the one-column matrix viewed as a vector has at n
    its entry (n, 0), and the slice that starts at column 0 reads the matrix at the same row, column 0. -/
theorem outCol_apply (f : FVec Ideal S100000x128 .f32) (n : Fin 100000) :
    Stage.outCol (F := Ideal) f (ix1 n) = f (ix2 n (0 : Fin 128)) := by
  unfold Stage.outCol
  refine (shapeCast_apply _ _ (ix1 n) (ix2 n (0 : Fin 1)) ?_).trans ?_
  · rw [Shape.rowMajor_val_two, Shape.rowMajor_val_one]
    show n.val * 1 + 0 = n.val
    omega
  · exact slice2_axis1_apply 0 f _ n (0 : Fin 1) (0 : Fin 128) rfl

end Cert.KernelIdeal.KRead

end
-- ==== Proof.RefLayer1.lean ====
/-
  The reference program's first layer, stage by stage, in the kernel program's vocabulary: its degree weights and edge weights are the same functions of the edge list; its product x·W1 is the plain sum over k; and its first layer's result, after the rectifier, is max((aggregate + h·d^(-1)) + bias, 0) with the same aggregate function applied to the same product.
-/
import proofs.«120777_j44702019616965_1_alg».proof.Proof.Gen.ReferenceIdeal.Read
import proofs.«120777_j44702019616965_1_alg».proof.Proof.KStage
import proofs.«120777_j44702019616965_1_alg».proof.Proof.LibGatherScatter
import proofs.«120777_j44702019616965_1_alg».proof.Proof.KRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefLayer1

open Idealize.ShloMosaic Idealize.ShloMosaic.ValueIdx
open Cert.ReferenceIdeal.Read
open scoped BigOperators

-- the six arguments of the reference's entry point, at the extended reals, in the types its stages take
variable (x0 : (⟨Cert.ReferenceIdeal.S100000x64, .f32⟩ : BufTy).Contents (Elt Ideal))
  (x1 : (⟨Cert.ReferenceIdeal.S2x1600000, .i32⟩ : BufTy).Contents (Elt Ideal))
  (x2 : (⟨Cert.ReferenceIdeal.S64x128, .f32⟩ : BufTy).Contents (Elt Ideal))
  (x3 : (⟨Cert.ReferenceIdeal.S128, .f32⟩ : BufTy).Contents (Elt Ideal))

/-! ## The edge list's two rows, counted from the end when negative, as columns of start positions

The reference computes each of these several times over, once per use; every copy is the same function of the edge
list as the kernel program's: row 0 or row 1 of the edge list, then n + 100000 in place of a negative n, then the
vector set upright as a column. -/

/-- The reference's row of source nodes (row 0 of the edge list, flattened) is the kernel program's. -/
theorem ref_src : val_main_v1 (F := Ideal) x1 = Cert.KernelIdeal.Stage.srcRow x1 := rfl
/-- The reference's row of destination nodes (row 1 of the edge list, flattened) is the kernel program's. -/
theorem ref_dst : val_main_v3 (F := Ideal) x1 = Cert.KernelIdeal.Stage.dstRow x1 := rfl

/-- The source nodes with n < 0 replaced by n + 100000, first copy. -/
theorem ref_wsrc : val_main_v16 (F := Ideal) x1 = Cert.KernelIdeal.Stage.wrap (Cert.KernelIdeal.Stage.srcRow x1) := by
  unfold val_main_v16 val_main_v13 val_main_v15 val_main_v12 val_main_v14 val_main_c val_main_c_2
  rw [ref_src]
  rfl
/-- The destination nodes with n < 0 replaced by n + 100000, first copy. -/
theorem ref_wdst : val_main_v23 (F := Ideal) x1 = Cert.KernelIdeal.Stage.wrap (Cert.KernelIdeal.Stage.dstRow x1) := by
  unfold val_main_v23 val_main_v20 val_main_v22 val_main_v19 val_main_v21 val_main_c_3 val_main_c_4
  rw [ref_dst]
  rfl
/-- The wrapped source nodes as a one-column matrix, first copy. -/
theorem ref_csrc : val_main_v17 (F := Ideal) x1 = Cert.KernelIdeal.Stage.col (Cert.KernelIdeal.Stage.wrap (Cert.KernelIdeal.Stage.srcRow x1)) := by
  unfold val_main_v17
  rw [ref_wsrc]
  rfl
/-- The wrapped destination nodes as a one-column matrix, first copy. -/
theorem ref_cdst : val_main_v24 (F := Ideal) x1 = Cert.KernelIdeal.Stage.col (Cert.KernelIdeal.Stage.wrap (Cert.KernelIdeal.Stage.dstRow x1)) := by
  unfold val_main_v24
  rw [ref_wdst]
  rfl
/-- The destination nodes, as they stand, as a one-column matrix: where the degree count adds its ones. -/
theorem ref_cd : val_main_v7 (F := Ideal) x1 = Cert.KernelIdeal.Stage.col (Cert.KernelIdeal.Stage.dstRow x1) := by
  unfold val_main_v7
  rw [ref_dst]
  rfl

/-! ## Degree weights and edge weights -/

/-- The reference's d^(-1/2), both times it computes it, is the kernel program's. -/
theorem ref_dinv : val_main_v11 (F := Ideal) x1 = Cert.KernelIdeal.Stage.dinv (F := Ideal) x1 := by
  unfold val_main_v11 val_main_v10 val_main_v8 val_main_v9 val_main_v6 val_main_v5 val_main_cst val_main_cst_0 val_main_cst_1
  rw [ref_cd]
  rfl

/-- The reference's edge weights, both times it computes them, are the kernel program's. -/
theorem ref_norm : val_main_v26 (F := Ideal) x1 = Cert.KernelIdeal.Stage.norm (F := Ideal) x1 := by
  unfold val_main_v26 val_main_v18 val_main_v25
  rw [ref_dinv, ref_csrc, ref_cdst]
  rfl

/-- The wrapped source nodes, the copy made for the second layer's edge weights. -/
theorem ref_wsrc' : val_main_v61 (F := Ideal) x1 = Cert.KernelIdeal.Stage.wrap (Cert.KernelIdeal.Stage.srcRow x1) := by
  unfold val_main_v61 val_main_v58 val_main_v60 val_main_v57 val_main_v59 val_main_c_11 val_main_c_12
  rw [ref_src]
  rfl
/-- The wrapped destination nodes, the copy made for the second layer's edge weights. -/
theorem ref_wdst' : val_main_v68 (F := Ideal) x1 = Cert.KernelIdeal.Stage.wrap (Cert.KernelIdeal.Stage.dstRow x1) := by
  unfold val_main_v68 val_main_v65 val_main_v67 val_main_v64 val_main_v66 val_main_c_13 val_main_c_14
  rw [ref_dst]
  rfl
/-- The same wrapped source nodes as a one-column matrix. -/
theorem ref_csrc' : val_main_v62 (F := Ideal) x1 = Cert.KernelIdeal.Stage.col (Cert.KernelIdeal.Stage.wrap (Cert.KernelIdeal.Stage.srcRow x1)) := by
  unfold val_main_v62
  rw [ref_wsrc']
  rfl
/-- The same wrapped destination nodes as a one-column matrix. -/
theorem ref_cdst' : val_main_v69 (F := Ideal) x1 = Cert.KernelIdeal.Stage.col (Cert.KernelIdeal.Stage.wrap (Cert.KernelIdeal.Stage.dstRow x1)) := by
  unfold val_main_v69
  rw [ref_wdst']
  rfl
/-- The destination nodes as a one-column matrix, the copy the second degree count adds its ones at. -/
theorem ref_cd' : val_main_v52 (F := Ideal) x1 = Cert.KernelIdeal.Stage.col (Cert.KernelIdeal.Stage.dstRow x1) := by
  unfold val_main_v52
  rw [ref_dst]
  rfl
/-- The reference's second computation of d^(-1/2) is the kernel program's too: the same count of incoming edges plus
    one, and the same inverse square root. -/
theorem ref_dinv' : val_main_v56 (F := Ideal) x1 = Cert.KernelIdeal.Stage.dinv (F := Ideal) x1 := by
  unfold val_main_v56 val_main_v55 val_main_v53 val_main_v54 val_main_v51 val_main_v50 val_main_cst_8 val_main_cst_9 val_main_cst_10
  rw [ref_cd']
  rfl
/-- The reference's second computation of the edge weights, from its second d^(-1/2), is the kernel program's too. -/
theorem ref_norm' : val_main_v71 (F := Ideal) x1 = Cert.KernelIdeal.Stage.norm (F := Ideal) x1 := by
  unfold val_main_v71 val_main_v63 val_main_v70
  rw [ref_dinv', ref_csrc', ref_cdst']
  rfl

/-! ## The first layer -/

/-- The reference's first product is x·W1 as the plain sum over k: entry (i, j) contracts row i of x with column j of
    W1, and the two index maps of the contraction are (i, k) and (k, j). -/
theorem ref_h0 : val_main_v4 (F := Ideal) x0 x2 = Cert.KernelIdeal.Stage.lin64 x0 x2 := by
  funext i
  rw [val_main_v4_apply]
  unfold Cert.KernelIdeal.Stage.lin64
  refine Finset.sum_congr rfl fun k _ => ?_
  have el : lidx_main_v4 i k = ix2 (i 0) k :=
    funext fun a => Fin.ext (by match a with | ⟨0, _⟩ => rfl | ⟨1, _⟩ => rfl)
  have er : ridx_main_v4 i k = ix2 k (i 1) :=
    funext fun a => Fin.ext (by match a with | ⟨0, _⟩ => rfl | ⟨1, _⟩ => rfl)
  rw [el, er]
  rfl

/-- The wrapped source nodes, the copy the first layer gathers its messages at. -/
theorem ref_wsrc'' : val_main_v31 (F := Ideal) x1 = Cert.KernelIdeal.Stage.wrap (Cert.KernelIdeal.Stage.srcRow x1) := by
  unfold val_main_v31 val_main_v28 val_main_v30 val_main_v27 val_main_v29 val_main_c_5 val_main_c_6
  rw [ref_src]
  rfl
/-- The same as a one-column matrix. -/
theorem ref_csrc'' : val_main_v32 (F := Ideal) x1 = Cert.KernelIdeal.Stage.col (Cert.KernelIdeal.Stage.wrap (Cert.KernelIdeal.Stage.srcRow x1)) := by
  unfold val_main_v32
  rw [ref_wsrc'']
  rfl
/-- The destination nodes as a one-column matrix, the copy the first layer's messages are summed at. -/
theorem ref_cd'' : val_main_v38 (F := Ideal) x1 = Cert.KernelIdeal.Stage.col (Cert.KernelIdeal.Stage.dstRow x1) := by
  unfold val_main_v38
  rw [ref_dst]
  rfl

/-- The reference's first aggregation is the kernel program's aggregate function of the reference's own product:
    rows of the product gathered at the wrapped sources, scaled by the edge weights spread over the 128 columns, and
    summed into a zero matrix at the destinations. The statement holds for the product as an arbitrary matrix. -/
theorem ref_agg : val_main_v39 (F := Ideal) x0 x1 x2
    = Cert.KernelIdeal.Stage.agg (F := Ideal) (val_main_v4 (F := Ideal) x0 x2) x1 := by
  unfold val_main_v39 val_main_v37 val_main_cst_7 val_main_v36 val_main_v33 val_main_v35 val_main_v34
  rw [ref_cd'', ref_csrc'', ref_norm]
  generalize val_main_v4 (F := Ideal) x0 x2 = h
  rfl

/-- The reference's first layer after the rectifier. At entry (i, j) the reference adds to the aggregate the product
    entry times d(i)^(-1/2) squared (a vector spread along the columns), then the bias of column j (a vector spread
    along the rows), and takes the maximum with zero; the kernel program's combination reads the same two vectors
    through a one-column and a one-row matrix, which hold the same entries. -/
theorem ref_h1 : val_main_v48 (F := Ideal) x0 x1 x2 x3
    = Cert.KernelIdeal.Stage.reluComb
        (Cert.KernelIdeal.Stage.agg (F := Ideal) (Cert.KernelIdeal.Stage.lin64 x0 x2) x1)
        (Cert.KernelIdeal.Stage.lin64 x0 x2)
        (Cert.KernelIdeal.Stage.dinv2 (F := Ideal) x1)
        (Cert.KernelIdeal.Stage.brow (F := Ideal) x3) := by
  funext i
  rw [val_main_v48_apply, val_main_v47_apply, val_main_v46_apply, val_main_v45_apply, val_main_v44_apply,
    val_main_v43_apply, val_main_v42_apply, val_main_v41_apply, val_main_v40_apply,
    val_main_call0_v0_apply, val_main_call0_cst_apply, ref_agg, ref_h0, ref_dinv]
  have e1 : idx_main_v41 (idx_main_v42 i) = ix1 (i 0) :=
    funext fun a => Fin.ext (by match a with | ⟨0, _⟩ => rfl)
  have e2 : idx_main_v45 (idx_main_v46 i) = ix1 (i 1) :=
    funext fun a => Fin.ext (by match a with | ⟨0, _⟩ => rfl)
  rw [e1, e2]
  unfold Cert.KernelIdeal.Stage.reluComb Cert.KernelIdeal.Stage.comb
  rw [Cert.KernelIdeal.KRead.dinv2_apply x1 (i 0), Cert.KernelIdeal.KRead.brow_apply x3 (i 1)]
  simp only [Ideal.maximumf_def, Ideal.addf_def, Ideal.mulf_def, Ideal.ofBits_def, Ideal.ofBits_zero_f32]
  rfl

end Cert.RefLayer1

end
-- ==== Proof.RefLayer2.lean ====
/-
  The reference program's second layer read at one output entry n: the aggregate at (n, 0) as a sum over the edges that end in n, the one-column product at (i, 0) as a sum over k, and the result as (aggregate + product·d^(-1)) + bias.
-/
import proofs.«120777_j44702019616965_1_alg».proof.Proof.Gen.ReferenceIdeal.Read
import proofs.«120777_j44702019616965_1_alg».proof.Proof.KStage
import proofs.«120777_j44702019616965_1_alg».proof.Proof.RefLayer1
import proofs.«120777_j44702019616965_1_alg».proof.Proof.LibGatherScatter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefLayer2

open Idealize.ShloMosaic Idealize.ShloMosaic.ValueIdx
open Cert.ReferenceIdeal.Read
open scoped BigOperators

variable (x0 : (⟨Cert.ReferenceIdeal.S100000x64, .f32⟩ : BufTy).Contents (Elt Ideal))
  (x1 : (⟨Cert.ReferenceIdeal.S2x1600000, .i32⟩ : BufTy).Contents (Elt Ideal))
  (x2 : (⟨Cert.ReferenceIdeal.S64x128, .f32⟩ : BufTy).Contents (Elt Ideal))
  (x3 : (⟨Cert.ReferenceIdeal.S128, .f32⟩ : BufTy).Contents (Elt Ideal))
  (x4 : (⟨Cert.ReferenceIdeal.S128x1, .f32⟩ : BufTy).Contents (Elt Ideal))
  (x5 : (⟨Cert.ReferenceIdeal.S1, .f32⟩ : BufTy).Contents (Elt Ideal))

/-! ## Where each operation of the second layer reads its operands -/

/-- In the product into one column, entry (i, 0) reads the left factor at (i, k). -/
theorem lidx_h2 (i : Fin 100000) (k : Fin 128) : lidx_main_v49 (ix2 i (0 : Fin 1)) k = ix2 i k :=
  funext fun a => Fin.ext (by match a with | ⟨0, _⟩ => rfl | ⟨1, _⟩ => rfl)

/-- In the product into one column, entry (i, 0) reads the right factor at (k, 0). -/
theorem ridx_h2 (i : Fin 100000) (k : Fin 128) : ridx_main_v49 (ix2 i (0 : Fin 1)) k = ix2 k (0 : Fin 1) :=
  funext fun a => Fin.ext (by match a with | ⟨0, _⟩ => rfl | ⟨1, _⟩ => rfl)

/-- The edge weights laid out as a column: entry (e, 0) is the weight of e. -/
theorem idx_weightCol (e : Fin 1600000) : idx_main_v79 (ix2 e (0 : Fin 1)) = ix1 e :=
  funext fun a => Fin.ext (by match a with | ⟨0, _⟩ => rfl)

/-- The self-loop weights laid out as a column: entry (n, 0) is the weight of n. -/
theorem idx_selfCol (n : Fin 100000) : idx_main_v85 (ix2 n (0 : Fin 1)) = ix1 n :=
  funext fun a => Fin.ext (by match a with | ⟨0, _⟩ => rfl)

/-- The one bias laid out as a 1 × 1 matrix: every entry is the bias. -/
theorem idx_bias (j : Cert.ReferenceIdeal.S1x1.Idx) : idx_main_v88 j = ix1 (0 : Fin 1) :=
  funext fun a => Fin.ext (by match a with | ⟨0, _⟩ => rfl)

/-- The one-column result flattened to a vector: entry n is entry (n, 0), since n / 1 = n. -/
theorem idx_flat (n : Fin 100000) : idx_main_v91 (ix1 n) = ix2 n (0 : Fin 1) :=
  funext fun a => Fin.ext (by
    match a with
    | ⟨0, _⟩ => exact Nat.div_one _
    | ⟨1, _⟩ => rfl)

/-! ## The reference's index columns are the kernel program's -/

/-- The reference's row of destination nodes is row 1 of the edge list, as in the kernel program. -/
theorem dst_eq : val_main_v3 (F := Ideal) x1 = Cert.KernelIdeal.Stage.dstRow x1 := rfl

/-- The reference's row of source nodes is row 0 of the edge list, as in the kernel program. -/
theorem src_eq : val_main_v1 (F := Ideal) x1 = Cert.KernelIdeal.Stage.srcRow x1 := rfl

/-- The column of destinations the second aggregate scatters by is the kernel program's. -/
theorem dstCol_eq : val_main_v82 (F := Ideal) x1
    = Cert.KernelIdeal.Stage.col (Cert.KernelIdeal.Stage.dstRow x1) := by
  unfold val_main_v82 Cert.KernelIdeal.Stage.col
  rw [dst_eq]

/-- The sources with a negative node number counted from the end: s < 0 becomes s + 100000, as in the kernel program. -/
theorem srcWrap_eq : val_main_v76 (F := Ideal) x1
    = Cert.KernelIdeal.Stage.wrap (Cert.KernelIdeal.Stage.srcRow x1) := by
  unfold val_main_v76 val_main_v73 val_main_v75 val_main_v72 val_main_v74 val_main_c_15 val_main_c_16
    Cert.KernelIdeal.Stage.wrap
  rw [src_eq]

/-- The column of source positions the second layer gathers at is the kernel program's. -/
theorem srcCol_eq : val_main_v77 (F := Ideal) x1
    = Cert.KernelIdeal.Stage.col (Cert.KernelIdeal.Stage.wrap (Cert.KernelIdeal.Stage.srcRow x1)) := by
  unfold val_main_v77 Cert.KernelIdeal.Stage.col
  rw [srcWrap_eq]

/-! ## The second layer at one entry -/

/-- The second product at (i, 0): the sum over k of the first layer's result at (i, k) times the weight column at k. -/
theorem ref_h2 (i : Fin 100000) : val_main_v49 (F := Ideal) x0 x1 x2 x3 x4 (ix2 i (0 : Fin 1))
    = ∑ k : Fin 128, val_main_v48 (F := Ideal) x0 x1 x2 x3 (ix2 i k) * x4 (ix2 k (0 : Fin 1)) := by
  rw [val_main_v49_apply]
  refine Finset.sum_congr rfl fun k _ => ?_
  rw [lidx_h2, ridx_h2]

/-- The second aggregate at (n, 0): the sum, over the edges e that end in n, of the second product at the source
    position of e times the weight of e. The scatter starts from zero and adds, into row n, the message of every edge
    whose destination is n; the message of e is the gathered row of the second product, at the source of e counted
    from the end when negative and clamped into range, times the weight of e. -/
theorem ref_agg2 (n : Fin 100000) : val_main_v83 (F := Ideal) x0 x1 x2 x3 x4 (ix2 n (0 : Fin 1))
    = ∑ e ∈ Cert.KernelIdeal.Stage.inEdges x1 n,
        val_main_v49 (F := Ideal) x0 x1 x2 x3 x4 (ix2 (Cert.KernelIdeal.Stage.srcPos x1 e) (0 : Fin 1))
          * Cert.KernelIdeal.Stage.norm (F := Ideal) x1 (ix1 e) := by
  unfold val_main_v83
  -- entry (n, 0) of the scatter: what was there plus the updates (e, 0) over the edges e whose destination is n
  refine (Cert.LibGatherScatter.scatterAdd_rows (N := 100000) (D := 1) (n := 1600000) (w := 32)
    Cert.ReferenceIdeal.scatter_S100000x1_S1600000x1_S1600000x1_1_0_0_1 rfl rfl rfl rfl
    (val_main_v81 (F := Ideal)) (val_main_v82 (F := Ideal) x1) (val_main_v80 (F := Ideal) x0 x1 x2 x3 x4)
    n (0 : Fin 1)).trans ?_
  -- what was there is zero, and the destinations are the kernel program's column
  rw [val_main_v81_apply, val_main_cst_17_apply, Ideal.ofBits_def, Ideal.ofBits_zero_f32, zero_add, dstCol_eq]
  unfold Cert.KernelIdeal.Stage.inEdges
  refine Finset.sum_congr rfl fun e _ => ?_
  -- the update (e, 0) is the gathered entry times the weight of e
  rw [val_main_v80_apply, val_main_v79_apply, idx_weightCol, Cert.RefLayer1.ref_norm', Ideal.mulf_def]
  refine congrArg (fun t => t * Cert.KernelIdeal.Stage.norm (F := Ideal) x1 (ix1 e)) ?_
  unfold val_main_v78
  -- entry (e, 0) of the gather: the second product at (the source position of e, 0)
  refine (Cert.LibGatherScatter.gather_rows (N := 100000) (D := 1) (n := 1600000) (w := 32)
    Cert.ReferenceIdeal.gather_S100000x1_S1600000x1_S1600000x1_1_0_n_n_0_1_11 rfl rfl rfl rfl rfl rfl
    (val_main_v49 (F := Ideal) x0 x1 x2 x3 x4) (val_main_v77 (F := Ideal) x1) e (0 : Fin 1) (by decide)).trans ?_
  rw [srcCol_eq]
  rfl

/-- The reference's result at n: the second aggregate at (n, 0), plus the second product at (n, 0) times
    d(n)^(-1/2) · d(n)^(-1/2), plus the bias. -/
theorem ref_out (n : Fin 100000) : val_main_v91 (F := Ideal) x0 x1 x2 x3 x4 x5 (ix1 n)
    = (val_main_v83 (F := Ideal) x0 x1 x2 x3 x4 (ix2 n (0 : Fin 1))
        + val_main_v49 (F := Ideal) x0 x1 x2 x3 x4 (ix2 n (0 : Fin 1))
          * (Cert.KernelIdeal.Stage.dinv (F := Ideal) x1 (ix1 n) * Cert.KernelIdeal.Stage.dinv (F := Ideal) x1 (ix1 n)))
      + x5 (ix1 (0 : Fin 1)) := by
  rw [val_main_v91_apply, idx_flat, val_main_v90_apply, val_main_v89_apply, val_main_v88_apply, idx_bias,
    val_main_v87_apply, val_main_v86_apply, val_main_v85_apply, idx_selfCol, val_main_v84_apply,
    Cert.RefLayer1.ref_dinv']
  rfl

end Cert.RefLayer2

end
-- ==== Proof.Bridge.lean ====
/-
  The two programs' results are one function. Entry n of either is
      (Σ over the edges e that end in n of P(src e)·weight(e) + P(n)·d(n)^(-1)) + b2,
  where P(i) = Σ_k H(i, k)·W2(k) is the second layer's product and H the first layer's result. The kernel program
  computes P 128 columns wide against weights widened by zeros and keeps column 0, where the widened weights are the
  original column; the reference computes the one column directly. H is the same array on both sides: the same
  aggregation, self-loop term, bias and rectifier applied to the same product x·W1. No law of arithmetic is used beyond
  reading both sides at an entry, so no finiteness of the inputs is needed.
-/
import proofs.«120777_j44702019616965_1_alg».proof.Proof.KResult
import proofs.«120777_j44702019616965_1_alg».proof.Proof.KRead
import proofs.«120777_j44702019616965_1_alg».proof.Proof.RefLayer1
import proofs.«120777_j44702019616965_1_alg».proof.Proof.RefLayer2

set_option maxRecDepth 16384

noncomputable section

namespace Cert.Bridge

open Idealize.ShloMosaic Idealize.ShloMosaic.ValueIdx
open Cert.ReferenceIdeal.Read Cert.KernelIdeal
open scoped BigOperators

variable (x0 : (⟨Cert.ReferenceIdeal.S100000x64, .f32⟩ : BufTy).Contents (Elt Ideal))
  (x1 : (⟨Cert.ReferenceIdeal.S2x1600000, .i32⟩ : BufTy).Contents (Elt Ideal))
  (x2 : (⟨Cert.ReferenceIdeal.S64x128, .f32⟩ : BufTy).Contents (Elt Ideal))
  (x3 : (⟨Cert.ReferenceIdeal.S128, .f32⟩ : BufTy).Contents (Elt Ideal))
  (x4 : (⟨Cert.ReferenceIdeal.S128x1, .f32⟩ : BufTy).Contents (Elt Ideal))
  (x5 : (⟨Cert.ReferenceIdeal.S1, .f32⟩ : BufTy).Contents (Elt Ideal))

/-- The first layer's result is the same array in both programs. -/
theorem layer1_eq : Stage.layer1 x0 x1 x2 x3 = val_main_v48 (F := Ideal) x0 x1 x2 x3 :=
  (Cert.RefLayer1.ref_h1 x0 x1 x2 x3).symm

/-- Column 0 of the kernel program's 128-column product is the reference's one-column product. -/
theorem prod2_col0 (i : Fin 100000) :
    Stage.prod2 x0 x1 x2 x3 x4 (ix2 i (0 : Fin 128)) = val_main_v49 (F := Ideal) x0 x1 x2 x3 x4 (ix2 i (0 : Fin 1)) := by
  rw [Cert.RefLayer2.ref_h2 x0 x1 x2 x3 x4 i, ← layer1_eq x0 x1 x2 x3]
  show ∑ k : Fin 128, Stage.layer1 x0 x1 x2 x3 (ix2 i k) * Stage.w2pad (F := Ideal) x4 (ix2 k (0 : Fin 128)) = _
  exact Finset.sum_congr rfl fun k _ => by rw [KRead.w2pad_col0]

/-- The kernel program's result is the reference's last stage, entry by entry. -/
theorem result_eq : Stage.result x0 x1 x2 x3 x4 x5 = val_main_v91 (F := Ideal) x0 x1 x2 x3 x4 x5 := by
  funext i
  obtain ⟨n, rfl⟩ : ∃ n : Fin 100000, i = ix1 n := ⟨i 0, eq_ix1 i⟩
  rw [Cert.RefLayer2.ref_out x0 x1 x2 x3 x4 x5 n, Cert.RefLayer2.ref_agg2 x0 x1 x2 x3 x4 n]
  unfold Stage.result
  rw [KRead.outCol_apply]
  show (Stage.agg (F := Ideal) (Stage.prod2 x0 x1 x2 x3 x4) x1 (ix2 n (0 : Fin 128))
        + Stage.prod2 x0 x1 x2 x3 x4 (ix2 n (0 : Fin 128)) * Stage.dinv2 (F := Ideal) x1 (ix2 n (0 : Fin 1)))
      + Stage.brow (F := Ideal) (Stage.b2pad (F := Ideal) x5) (ix2 (0 : Fin 1) (0 : Fin 128)) = _
  rw [KRead.agg_apply, KRead.dinv2_apply, KRead.b2row_zero, prod2_col0 x0 x1 x2 x3 x4 n]
  -- the two sides now differ only inside the sum over the edges: the product at the source position, column 0
  have hs : ∑ e ∈ Stage.inEdges x1 n,
        Stage.prod2 x0 x1 x2 x3 x4 (ix2 (Stage.srcPos x1 e) (0 : Fin 128)) * Stage.norm (F := Ideal) x1 (ix1 e)
      = ∑ e ∈ Stage.inEdges x1 n,
        val_main_v49 (F := Ideal) x0 x1 x2 x3 x4 (ix2 (Stage.srcPos x1 e) (0 : Fin 1)) * Stage.norm (F := Ideal) x1 (ix1 e) :=
    Finset.sum_congr rfl fun e _ => by rw [prod2_col0 x0 x1 x2 x3 x4]
  rw [hs]

end Cert.Bridge

end
-- ==== Proof.lean ====
/-
  A two-layer graph convolution over 100000 nodes and 1600000 edges: per layer, a matrix product, messages gathered
  along the edges and scaled by d(src)^(-1/2)·d(dst)^(-1/2), summed into their destination rows, plus the self-loop
  term h·d^(-1), plus a bias; a rectifier after the first layer. The kernel program computes the two products and the two
  combinations in four tiled matrix kernels (50 row blocks of 2000 rows each) and leaves the gathers and sums to the
  host; it widens the second layer's one weight column and one bias to 128 by zeros and returns column 0. The reference
  computes everything on the host, the second layer one column wide.

  Over the extended reals the two results are the same function of the arguments, entry by entry: the narrowing of the
  matrix kernels' operands to half width is the identity, a product into a zero accumulator is the plain sum over k, the
  tiles together are the whole product, and column 0 of the widened second layer reads only the original weight column
  and bias (Proof/Bridge.lean). Both sides add the same terms in the same grouping, so no finiteness of the inputs is used.

  The three frames: the two kernel programs' are the generated frame proofs; the reference's is its generated run with
  the result dropped. The idealization rewrote no operation, so there is nothing to preserve.
-/
import proofs.«120777_j44702019616965_1_alg».proof.Defs
import proofs.«120777_j44702019616965_1_alg».proof.Proof.Gen.Kernel
import proofs.«120777_j44702019616965_1_alg».proof.Proof.Gen.Kernel.Skeleton
import proofs.«120777_j44702019616965_1_alg».proof.Proof.Gen.Kernel.Launch
import proofs.«120777_j44702019616965_1_alg».proof.Proof.Gen.Kernel.Points
import proofs.«120777_j44702019616965_1_alg».proof.Proof.Gen.Kernel.Frame
import proofs.«120777_j44702019616965_1_alg».proof.Proof.Gen.KernelIdeal
import proofs.«120777_j44702019616965_1_alg».proof.Proof.Gen.KernelIdeal.Skeleton
import proofs.«120777_j44702019616965_1_alg».proof.Proof.Gen.KernelIdeal.Launch
import proofs.«120777_j44702019616965_1_alg».proof.Proof.Gen.KernelIdeal.Points
import proofs.«120777_j44702019616965_1_alg».proof.Proof.Gen.KernelIdeal.Frame
import proofs.«120777_j44702019616965_1_alg».proof.Proof.Gen.ReferenceIdeal
import proofs.«120777_j44702019616965_1_alg».proof.Proof.Gen.ReferenceIdeal.Run
import proofs.«120777_j44702019616965_1_alg».proof.Proof.Gen.ReferenceIdeal.Read
import proofs.«120777_j44702019616965_1_alg».proof.Proof.Gen.Pre_finite_inputs
import proofs.«120777_j44702019616965_1_alg».proof.Proof.KernelRun
import proofs.«120777_j44702019616965_1_alg».proof.Proof.KValue
import proofs.«120777_j44702019616965_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, faults nowhere, and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is a host program: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the same result: the kernel program's result
    buffer holds its composed function of the arguments (the run read back), the reference's holds its last stage of the
    arguments (its generated run), and the two are one function. -/
theorem algebraic : Cert.algebraic_KernelIdeal_ReferenceIdeal := by
  intro m ρ m' ρ' _ hagree
  refine ⟨fun c => Cert.KernelIdeal.Stage.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.kernel_value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v91_eq, (hagree c).1, (hagree c).2.1, (hagree c).2.2.1, (hagree c).2.2.2.1,
      (hagree c).2.2.2.2.1, (hagree c).2.2.2.2.2]
    exact (Cert.Bridge.result_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
